-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S2x320000 : Shape := ⟨2, ![2, 320000]⟩
abbrev S256x256 : Shape := ⟨2, ![256, 256]⟩
abbrev S256 : Shape := ⟨1, ![256]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg5 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S10000x256 .f32) (main_arg1 : IVec S2x320000 32) (main_arg2 : FVec F S256x256 .f32) (main_arg3 : FVec F S256 .f32) (main_arg4 : FVec F S256x256 .f32) (main_arg5 : FVec F S256 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_v13 main_v16
-- ==== Kernel.lean ====
abbrev S10000x256 : Shape := ⟨2, ![10000, 256]⟩
abbrev S2x320000 : Shape := ⟨2, ![2, 320000]⟩
abbrev S256x256 : Shape := ⟨2, ![256, 256]⟩
abbrev S256 : Shape := ⟨1, ![256]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x256 : Shape := ⟨2, ![320000, 256]⟩
abbrev S1000x256 : Shape := ⟨2, ![1000, 256]⟩
abbrev S1x256 : Shape := ⟨2, ![1, 256]⟩

abbrev nBuf : Space → Nat
  | .hbm => 25
  | .vmem => 8
  | .smem => 0
  | _ => 0

abbrev bufTy : (tb : Table) → Fin (tcTables nBuf tb) → BufTy
  | .hbm, ⟨0, _⟩ => ⟨S10000x256, .f32⟩
  | .hbm, ⟨1, _⟩ => ⟨S2x320000, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S1x320000, .i32⟩
  | .hbm, ⟨7, _⟩ => ⟨S320000, .i32⟩
  | .hbm, ⟨8, _⟩ => ⟨S1x320000, .i32⟩
  | .hbm, ⟨9, _⟩ => ⟨S320000, .i32⟩
  | .hbm, ⟨10, _⟩ => ⟨S_, .i32⟩
  | .hbm, ⟨11, _⟩ => ⟨S320000, .i32⟩
  | .hbm, ⟨12, _⟩ => ⟨S320000, .i1⟩
  | .hbm, ⟨13, _⟩ => ⟨S_, .i32⟩
  | .hbm, ⟨14, _⟩ => ⟨S320000, .i32⟩
  | .hbm, ⟨15, _⟩ => ⟨S320000, .i32⟩
  | .hbm, ⟨16, _⟩ => ⟨S320000, .i32⟩
  | .hbm, ⟨17, _⟩ => ⟨S320000x1, .i32⟩
  | .hbm, ⟨18, _⟩ => ⟨S320000x256, .f32⟩
  | .hbm, ⟨19, _⟩ => ⟨S_, .f32⟩
  | .hbm, ⟨20, _⟩ => ⟨S10000x256, .f32⟩
  | .hbm, ⟨21, _⟩ => ⟨S320000x1, .i32⟩
  | .hbm, ⟨22, _⟩ => ⟨S10000x256, .f32⟩
  | .hbm, ⟨23, _⟩ => ⟨S10000x256, .f32⟩
  | .hbm, ⟨24, _⟩ => ⟨S10000x256, .f32⟩
  | .local _ .vmem, ⟨0, _⟩ => ⟨S1000x256, .f32⟩
  | .local _ .vmem, ⟨1, _⟩ => ⟨S1000x256, .f32⟩
  | .local _ .vmem, ⟨2, _⟩ => ⟨S256x256, .f32⟩
  | .local _ .vmem, ⟨3, _⟩ => ⟨S256, .f32⟩
  | .local _ .vmem, ⟨4, _⟩ => ⟨S256x256, .f32⟩
  | .local _ .vmem, ⟨5, _⟩ => ⟨S256, .f32⟩
  | .local _ .vmem, ⟨6, _⟩ => ⟨S1000x256, .f32⟩
  | .local _ .vmem, ⟨7, _⟩ => ⟨S1000x256, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  bcast_S_S10000x256 : S_.BroadcastsInDim S10000x256 (![] : Fin 0 → Fin S10000x256.rank)
  inb_S1000x256_S1000x256_0_0 : ∀ a, (![0, 0] : Fin 2 → Nat) a + S1000x256.size a ≤ S1000x256.size a
  h_S1000x256 : 0 < S1000x256.numel
  shapeCasts_S1000x256_S1000x256 : S1000x256.ShapeCasts S1000x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S256_S256_0 : ∀ a, (![0] : Fin 1 → Nat) a + S256.size a ≤ S256.size a
  h_S256 : 0 < S256.numel
  shapeCasts_S256_S1x256 : S256.ShapeCasts S1x256
  broadcasts_S1x256_S1000x256 : S1x256.Broadcasts S1000x256
  gather_S10000x256_S320000x1_S320000x256_1_0_n_n_0_1_1256_wf : GatherDims.WF S10000x256 S320000x1 S320000x256 [1] [0] [] [0] [] 1 ![1, 256]
  scatter_S10000x256_S320000x1_S320000x256_1_0_0_1_wf : ScatterDims.WF S10000x256 S320000x1 S320000x256 [1] [0] [0] 1
  dot_S1000x256_S256x256_S1000x256_1_0_0_1_n_n_wf : DotDims.WF S1000x256 S256x256 S1000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x256.size a ≤ S10000x256.size a
  hwx0_0 : ∀ i : grid0.Coords, EltTy.bits .f32 = 32 ∨ (Rect.block (s := S10000x256) S1000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1000x256.size a ≤ S10000x256.size a
  hwx0_5 : ∀ i : grid0.Coords, EltTy.bits .f32 = 32 ∨ (Rect.block (s := S10000x256) S1000x256.size (cc0_transform_5 i) (hinb0_5 i)).WholeWords (EltTy.packing .f32)

variable [Facts₀]

def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def scatter_S10000x256_S320000x1_S320000x256_1_0_0_1 : ScatterDims S10000x256 S320000x1 S320000x256 where
  updateWindowDims := [1]
  insertedWindowDims := [0]
  scatterDimsToOperandDims := [0]
  indexVectorDim := 1
  wf := scatter_S10000x256_S320000x1_S320000x256_1_0_0_1_wf
def dot_S1000x256_S256x256_S1000x256_1_0_0_1_n_n : DotDims S1000x256 S256x256 S1000x256 where
  lhsContracting := [1]
  rhsContracting := [0]
  lhsNonContracting := [0]
  rhsNonContracting := [1]
  lhsBatch := []
  rhsBatch := []
  wf := dot_S1000x256_S256x256_S1000x256_1_0_0_1_n_n_wf

abbrev win0_0 : Pipeline.Window sig grid0 :=
  Pipeline.Window.ofSpec (Memref.whole main_v14) S1000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S10000x256 : Shape := ⟨2, ![10000, 256]⟩
abbrev S2x320000 : Shape := ⟨2, ![2, 320000]⟩
abbrev S256x256 : Shape := ⟨2, ![256, 256]⟩
abbrev S256 : Shape := ⟨1, ![256]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x256 : Shape := ⟨2, ![320000, 256]⟩
abbrev S1x256 : Shape := ⟨2, ![1, 256]⟩

abbrev nBuf : Space → Nat
  | .hbm => 35
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S2x320000, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S1x320000, .i32⟩
  | .hbm, ⟨7, _⟩ => ⟨S320000, .i32⟩
  | .hbm, ⟨8, _⟩ => ⟨S1x320000, .i32⟩
  | .hbm, ⟨9, _⟩ => ⟨S320000, .i32⟩
  | .hbm, ⟨10, _⟩ => ⟨S_, .i32⟩
  | .hbm, ⟨11, _⟩ => ⟨S320000, .i32⟩
  | .hbm, ⟨12, _⟩ => ⟨S320000, .i1⟩
  | .hbm, ⟨13, _⟩ => ⟨S_, .i32⟩
  | .hbm, ⟨14, _⟩ => ⟨S320000, .i32⟩
  | .hbm, ⟨15, _⟩ => ⟨S320000, .i32⟩
  | .hbm, ⟨16, _⟩ => ⟨S320000, .i32⟩
  | .hbm, ⟨17, _⟩ => ⟨S320000x1, .i32⟩
  | .hbm, ⟨18, _⟩ => ⟨S320000x256, .f32⟩
  | .hbm, ⟨19, _⟩ => ⟨S_, .f32⟩
  | .hbm, ⟨20, _⟩ => ⟨S10000x256, .f32⟩
  | .hbm, ⟨21, _⟩ => ⟨S320000x1, .i32⟩
  | .hbm, ⟨22, _⟩ => ⟨S10000x256, .f32⟩
  | .hbm, ⟨23, _⟩ => ⟨S10000x256, .f32⟩
  | .hbm, ⟨24, _⟩ => ⟨S10000x256, .f32⟩
  | .hbm, ⟨25, _⟩ => ⟨S1x256, .f32⟩
  | .hbm, ⟨26, _⟩ => ⟨S10000x256, .f32⟩
  | .hbm, ⟨27, _⟩ => ⟨S10000x256, .f32⟩
  | .hbm, ⟨28, _⟩ => ⟨S_, .f32⟩
  | .hbm, ⟨29, _⟩ => ⟨S10000x256, .f32⟩
  | .hbm, ⟨30, _⟩ => ⟨S10000x256, .f32⟩
  | .hbm, ⟨31, _⟩ => ⟨S10000x256, .f32⟩
  | .hbm, ⟨32, _⟩ => ⟨S1x256, .f32⟩
  | .hbm, ⟨33, _⟩ => ⟨S10000x256, .f32⟩
  | .hbm, ⟨34, _⟩ => ⟨S10000x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_cst : Ref sig .tc := ⟨.hbm, 28, rfl⟩
abbrev main_call0_v0 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  bcast_S_S10000x256 : S_.BroadcastsInDim S10000x256 (![] : Fin 0 → Fin S10000x256.rank)
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  gather_S10000x256_S320000x1_S320000x256_1_0_n_n_0_1_1256_wf : GatherDims.WF S10000x256 S320000x1 S320000x256 [1] [0] [] [0] [] 1 ![1, 256]
  scatter_S10000x256_S320000x1_S320000x256_1_0_0_1_wf : ScatterDims.WF S10000x256 S320000x1 S320000x256 [1] [0] [0] 1
  dot_S10000x256_S256x256_S10000x256_1_0_0_1_n_n_wf : DotDims.WF S10000x256 S256x256 S10000x256 [1] [0] [0] [1] [] []

variable [Facts₀]

def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def scatter_S10000x256_S320000x1_S320000x256_1_0_0_1 : ScatterDims S10000x256 S320000x1 S320000x256 where
  updateWindowDims := [1]
  insertedWindowDims := [0]
  scatterDimsToOperandDims := [0]
  indexVectorDim := 1
  wf := scatter_S10000x256_S320000x1_S320000x256_1_0_0_1_wf
def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf

class Facts : Prop extends Facts₀ where

variable [Facts]
-- ==== Proof.MlpSpec.lean ====
/-
  One row of a two-layer perceptron with a rectified hidden layer, over the extended reals.

  For a row `x : Fin 256 → EReal` of features, weight matrices `W₁, W₂ : [256, 256]` and bias vectors
  `b₁, b₂ : [256]`:
    hidden unit  k :  max (∑ k', x k' · W₁[k', k] + b₁[k]) 0
    output unit  j :  ∑ k, hidden k · W₂[k, j] + b₂[j].
  The whole-array function `mlp` applies this to every row of a `[10000, 256]` feature array: entry `(r, j)`
  depends on row `r` of the features only. Both programs of the certificate compute exactly this function of the
  same aggregated features, with the same order of operations in each entry, so no law of the extended reals beyond
  the definitions is needed (and none that asks for finiteness).
-/
import Idealize.ShloMosaic.PureOps.Ideal
import Idealize.ShloMosaic.Lib.ValueIdx

noncomputable section

namespace Cert.GinMlp

open Idealize.ShloMosaic Idealize.ShloMosaic.ValueIdx

/-- A weight matrix's index set. -/
abbrev Mat : Shape := ⟨2, ![256, 256]⟩
/-- A bias vector's index set. -/
abbrev Bias : Shape := ⟨1, ![256]⟩
/-- The feature array's index set: one row per node. -/
abbrev Feat : Shape := ⟨2, ![10000, 256]⟩

/-- Hidden unit `k` of a feature row: the affine map of the first layer, rectified. -/
def hiddenUnit (row : Fin 256 → EReal) (W1 : Mat.Idx → EReal) (b1 : Bias.Idx → EReal) (k : Fin 256) : EReal :=
  max ((∑ k' : Fin 256, row k' * W1 (ix2 k' k)) + b1 (ix1 k)) 0

/-- Output unit `j` of a feature row: the affine map of the second layer over the hidden units. -/
def outUnit (row : Fin 256 → EReal) (W1 : Mat.Idx → EReal) (b1 : Bias.Idx → EReal) (W2 : Mat.Idx → EReal)
    (b2 : Bias.Idx → EReal) (j : Fin 256) : EReal :=
  (∑ k : Fin 256, hiddenUnit row W1 b1 k * W2 (ix2 k j)) + b2 (ix1 j)

/-- The perceptron applied to every row of a `[10000, 256]` array. -/
def mlp (h : Feat.Idx → EReal) (W1 : Mat.Idx → EReal) (b1 : Bias.Idx → EReal) (W2 : Mat.Idx → EReal)
    (b2 : Bias.Idx → EReal) : Feat.Idx → EReal :=
  fun i => outUnit (fun k' => h (ix2 (n0 := 10000) (i 0) k')) W1 b1 W2 b2 (i 1)

/-- Entry `(r, j)` of the result is output unit `j` of row `r`. -/
theorem mlp_apply (h : Feat.Idx → EReal) (W1 : Mat.Idx → EReal) (b1 : Bias.Idx → EReal) (W2 : Mat.Idx → EReal)
    (b2 : Bias.Idx → EReal) (r : Fin 10000) (j : Fin 256) :
    mlp h W1 b1 W2 b2 (ix2 r j) = outUnit (fun k' => h (ix2 r k')) W1 b1 W2 b2 j := rfl

end Cert.GinMlp

end
-- ==== Proof.KernelPayload.lean ====
/-
  The kernel body's arithmetic read at one entry.

  The body multiplies its `[1000, 256]` block of aggregated features by `W₁`, adds the bias row `b₁`, rectifies,
  multiplies by `W₂` and adds the bias row `b₂`. Over the extended reals the narrowing of an operand to a
  sixteen-bit format is the identity and a product accumulated into zero is the plain sum over the contracted
  coordinate, so entry `(r, j)` of the stored block is output unit `j` of the perceptron (`Cert.GinMlp.outUnit`)
  applied to row `r` of the feature block: it depends on that one row only.
-/
import proofs.«179988_j39273180954647_1_alg».proof.Proof.Gen.KernelIdeal.Skeleton
import proofs.«179988_j39273180954647_1_alg».proof.Proof.MlpSpec
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen Idealize.ShloMosaic Idealize.ShloMosaic.ValueIdx

/-! ## The product's operand indices, axis by axis

For the plain `[1000, 256] × [256, 256]` product, the left operand's index at output `i` and contraction
coordinate `q` is `(i₀, q)`, the right operand's `(q, i₁)`. -/

theorem lhs_blk_0 (i : S1000x256.Idx) (q : dot_S1000x256_S256x256_S1000x256_1_0_0_1_n_n.contr.Idx) :
    (dot_S1000x256_S256x256_S1000x256_1_0_0_1_n_n.lhsIdx i q 0).val = (i 0).val := by
  unfold DotDims.lhsIdx
  rw [dif_neg (show ¬(0 : Fin S1000x256.rank) ∈ dot_S1000x256_S256x256_S1000x256_1_0_0_1_n_n.lhsBatch by decide), dif_pos (show (0 : Fin S1000x256.rank) ∈ dot_S1000x256_S256x256_S1000x256_1_0_0_1_n_n.lhsNonContracting by decide)]
  rfl
theorem lhs_blk_1 (i : S1000x256.Idx) (q : dot_S1000x256_S256x256_S1000x256_1_0_0_1_n_n.contr.Idx) :
    (dot_S1000x256_S256x256_S1000x256_1_0_0_1_n_n.lhsIdx i q 1).val = (q ⟨0, by decide⟩).val :=
  dot_S1000x256_S256x256_S1000x256_1_0_0_1_n_n.lhsIdx_val_of_single rfl i q
theorem rhs_blk_0 (i : S1000x256.Idx) (q : dot_S1000x256_S256x256_S1000x256_1_0_0_1_n_n.contr.Idx) :
    (dot_S1000x256_S256x256_S1000x256_1_0_0_1_n_n.rhsIdx i q 0).val = (q ⟨0, by decide⟩).val :=
  dot_S1000x256_S256x256_S1000x256_1_0_0_1_n_n.rhsIdx_val_of_single rfl i q
theorem rhs_blk_1 (i : S1000x256.Idx) (q : dot_S1000x256_S256x256_S1000x256_1_0_0_1_n_n.contr.Idx) :
    (dot_S1000x256_S256x256_S1000x256_1_0_0_1_n_n.rhsIdx i q 1).val = (i 1).val := by
  unfold DotDims.rhsIdx
  rw [dif_neg (show ¬(1 : Fin S256x256.rank) ∈ dot_S1000x256_S256x256_S1000x256_1_0_0_1_n_n.rhsBatch by decide), dif_pos (show (1 : Fin S256x256.rank) ∈ dot_S1000x256_S256x256_S1000x256_1_0_0_1_n_n.rhsNonContracting by decide)]
  rfl

/-- A product accumulated into the zero block, read at `(r, j)`: the sum over `k` of the left operand at `(r, k)`
    times the right operand at `(k, j)`. -/
theorem matmul_zero_apply {φ₁ φ₂ : FTy} (A : FVec Ideal S1000x256 φ₁) (B : FVec Ideal S256x256 φ₂) (r : Fin 1000) (j : Fin 256) :
    matmul dot_S1000x256_S256x256_S1000x256_1_0_0_1_n_n none A B (constant S1000x256 .f32 0x00000000#32) (ix2 r j)
      = ∑ k : Fin 256, A (ix2 r k) * B (ix2 k j) := by
  simp only [matmul]
  rw [Ideal.matmul_constant_zero_apply, ← Equiv.sum_comp (contrEquiv1 dot_S1000x256_S256x256_S1000x256_1_0_0_1_n_n 256 rfl rfl).symm]
  refine Finset.sum_congr rfl fun k _ => ?_
  have hk := contrEquiv1_symm_val dot_S1000x256_S256x256_S1000x256_1_0_0_1_n_n 256 rfl rfl k
  have el : dot_S1000x256_S256x256_S1000x256_1_0_0_1_n_n.lhsIdx (ix2 r j) ((contrEquiv1 dot_S1000x256_S256x256_S1000x256_1_0_0_1_n_n 256 rfl rfl).symm k) = ix2 r k := funext fun a => Fin.ext (by
    match a with
    | ⟨0, _⟩ => exact lhs_blk_0 _ _
    | ⟨1, _⟩ => exact (lhs_blk_1 _ _).trans hk)
  have er : dot_S1000x256_S256x256_S1000x256_1_0_0_1_n_n.rhsIdx (ix2 r j) ((contrEquiv1 dot_S1000x256_S256x256_S1000x256_1_0_0_1_n_n 256 rfl rfl).symm k) = ix2 k j := funext fun a => Fin.ext (by
    match a with
    | ⟨0, _⟩ => exact (rhs_blk_0 _ _).trans hk
    | ⟨1, _⟩ => exact rhs_blk_1 _ _)
  rw [el, er]

/-- A bias vector laid out as one row and repeated down the block reads, at `(r, j)`, the vector at `j`. -/
theorem bias_row_apply (b : Vec Ideal S256 .f32) (h1 : S256.ShapeCasts S1x256) (h2 : S1x256.Broadcasts S1000x256)
    (r : Fin 1000) (j : Fin 256) :
    broadcastTo S1000x256 (shapeCast S1x256 b h1) h2 (ix2 r j) = b (ix1 j) :=
  (broadcastTo_1b_ab_apply (shapeCast S1x256 b h1) h2 r j).trans (shapeCast_a_1a_apply b h1 0 j)

/-- The rectified first layer at `(r, k)` is hidden unit `k` of row `r` of the feature block. -/
theorem hidden_apply (x0 : Vec Ideal S1000x256 .f32) (x1 : Vec Ideal S256x256 .f32) (x2 : Vec Ideal S256 .f32)
    (hc : S1000x256.ShapeCasts S1000x256) (hb : FTy.bf16.bits < FTy.f32.bits) (h1 : S256.ShapeCasts S1x256)
    (h2 : S1x256.Broadcasts S1000x256) (r : Fin 1000) (k : Fin 256) :
    maximumf (F := Ideal)
        (addf
          (matmul dot_S1000x256_S256x256_S1000x256_1_0_0_1_n_n none (truncf FTy.bf16 (shapeCast S1000x256 x0 hc) hb) (truncf FTy.bf16 x1 hb)
            (constant (F := Ideal) S1000x256 FTy.f32 0x00000000#32))
          (broadcastTo S1000x256 (shapeCast S1x256 x2 h1) h2))
        (broadcast S1000x256 (FloatOps.ofBits FTy.f32 0x00000000#32)) (ix2 r k)
      = Cert.GinMlp.hiddenUnit (fun k' => x0 (ix2 r k')) x1 x2 k := by
  rw [maximumf_apply, addf_apply, bias_row_apply, matmul_zero_apply, broadcast_apply, shapeCast_self]
  unfold Cert.GinMlp.hiddenUnit
  simp only [truncf_apply, Ideal.ofBits_def, Ideal.ofBits_zero_f32]

/-- THE PAYLOAD AT AN ENTRY: entry `(r, j)` of the block the body stores is output unit `j` of the perceptron on row
    `r` of the feature block. -/
theorem pay_apply (x0 : Vec Ideal S1000x256 .f32) (x1 : Vec Ideal S256x256 .f32) (x2 : Vec Ideal S256 .f32)
    (x3 : Vec Ideal S256x256 .f32) (x4 : Vec Ideal S256 .f32) (r : Fin 1000) (j : Fin 256) :
    k0_pay1 (F := Ideal) x0 x1 x2 x3 x4 (ix2 r j) = Cert.GinMlp.outUnit (fun k' => x0 (ix2 r k')) x1 x2 x3 x4 j := by
  unfold k0_pay1
  rw [addf_apply, bias_row_apply, matmul_zero_apply]
  unfold Cert.GinMlp.outUnit
  refine congrArg (· + x4 (ix1 j)) (Finset.sum_congr rfl fun k _ => ?_)
  rw [truncf_apply, truncf_apply, hidden_apply]

end Cert.KernelIdeal.Hand

end
-- ==== Proof.KernelValue.lean ====
/-
  The kernel's result array after the run, as one function of the arrays the pipeline stages.

  The grid has ten points. Point `t` fetches rows `1000·t … 1000·t + 999` of the aggregated feature array, sees the two
  weight matrices and the two bias vectors whole at every point, and writes back rows `1000·t … 1000·t + 999` of the
  result. Entry `(r, j)` of the block the body stores is output unit `j` of the perceptron on row `r` of the fetched
  block (`pay_apply`), and that row is row `1000·t + r` of the array; so what point `t` writes back is block `t` of
  `Cert.GinMlp.mlp` of the staged arrays. The ten row blocks cover the array (row `q` lies in block `q / 1000`), hence the
  result array ends holding `mlp` of the staged arrays.
-/
import proofs.«179988_j39273180954647_1_alg».proof.Proof.Gen.KernelIdeal.Value
import proofs.«179988_j39273180954647_1_alg».proof.Proof.KernelPayload
import Idealize.ShloMosaic.Lib.Pipeline.Value

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a; rfl

/-- The index maps over the ten grid points: the feature window and the result window sit at row block `t`, column
    block `0`; the weights' and biases' windows never move. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- Row `r` of grid point `t`'s block is row `1000·t + r` of the array. -/
def rowOf (t : Fin cfg0.N) (r : Fin 1000) : Fin 10000 :=
  ⟨1000 * t.val + r.val, by have h : t.val < 10 := lt_of_lt_of_eq t.isLt N_0; have := r.isLt; omega⟩

/-! ## The input blocks as pieces of the staged arrays -/

/-- The feature window's block at point `t`, at `(r, k)`: the aggregated array at row `1000·t + r`, column `k`. -/
theorem feat_blk_apply (c : Dev nD) (t : Fin cfg0.N) (r : Fin 1000) (k : Fin 256) :
    (iblk m c 0 t : Vec Ideal S1000x256 .f32) (ix2 r k) = (V m c main_v14 : S10000x256.Idx → EReal) (ix2 (rowOf t r) k) := by
  obtain ⟨e0, e1, -⟩ := idx_facts t
  unfold iblk
  rw [View.read_apply]
  show V m c main_v14 _ = V m c main_v14 _
  congr 1
  funext a
  apply Fin.ext
  match a with
  | ⟨0, _⟩ => show win0_0.index t (0 : Fin 2) * 1000 + 1 * r.val = 1000 * t.val + r.val; rw [e0]; omega
  | ⟨1, _⟩ => show win0_0.index t (1 : Fin 2) * 256 + 1 * k.val = k.val; rw [e1]; omega

/-- The first weight matrix's window holds the whole matrix at every point. -/
theorem w1_blk (c : Dev nD) (t : Fin cfg0.N) : (iblk m c 1 t : Vec Ideal S256x256 .f32) = V m c main_arg2 := by
  obtain ⟨-, -, e0, e1, -⟩ := idx_facts t
  funext y
  unfold iblk
  rw [View.read_apply]
  show V m c main_arg2 _ = V m c main_arg2 y
  congr 1
  funext a
  apply Fin.ext
  match a with
  | ⟨0, _⟩ => show win0_1.index t (0 : Fin 2) * 256 + 1 * (y 0).val = (y 0).val; rw [e0]; omega
  | ⟨1, _⟩ => show win0_1.index t (1 : Fin 2) * 256 + 1 * (y 1).val = (y 1).val; rw [e1]; omega

/-- The first bias vector's window holds the whole vector at every point. -/
theorem b1_blk (c : Dev nD) (t : Fin cfg0.N) : (iblk m c 2 t : Vec Ideal S256 .f32) = V m c main_arg3 := by
  obtain ⟨-, -, -, -, e0, -⟩ := idx_facts t
  funext y
  unfold iblk
  rw [View.read_apply]
  show V m c main_arg3 _ = V m c main_arg3 y
  congr 1
  funext a
  apply Fin.ext
  match a with
  | ⟨0, _⟩ => show win0_2.index t (0 : Fin 1) * 256 + 1 * (y 0).val = (y 0).val; rw [e0]; omega

/-- The second weight matrix's window holds the whole matrix at every point. -/
theorem w2_blk (c : Dev nD) (t : Fin cfg0.N) : (iblk m c 3 t : Vec Ideal S256x256 .f32) = V m c main_arg4 := by
  obtain ⟨-, -, -, -, -, e0, e1, -⟩ := idx_facts t
  funext y
  unfold iblk
  rw [View.read_apply]
  show V m c main_arg4 _ = V m c main_arg4 y
  congr 1
  funext a
  apply Fin.ext
  match a with
  | ⟨0, _⟩ => show win0_3.index t (0 : Fin 2) * 256 + 1 * (y 0).val = (y 0).val; rw [e0]; omega
  | ⟨1, _⟩ => show win0_3.index t (1 : Fin 2) * 256 + 1 * (y 1).val = (y 1).val; rw [e1]; omega

/-- The second bias vector's window holds the whole vector at every point. -/
theorem b2_blk (c : Dev nD) (t : Fin cfg0.N) : (iblk m c 4 t : Vec Ideal S256 .f32) = V m c main_arg5 := by
  obtain ⟨-, -, -, -, -, -, -, e0, -⟩ := idx_facts t
  funext y
  unfold iblk
  rw [View.read_apply]
  show V m c main_arg5 _ = V m c main_arg5 y
  congr 1
  funext a
  apply Fin.ext
  match a with
  | ⟨0, _⟩ => show win0_4.index t (0 : Fin 1) * 256 + 1 * (y 0).val = (y 0).val; rw [e0]; omega

/-! ## What a point writes back, and the whole array -/

/-- The result as one function of the staged arrays: the perceptron on every row of the aggregated features. -/
abbrev result (c : Dev nD) : S10000x256.Idx → EReal :=
  Cert.GinMlp.mlp (V m c main_v14) (V m c main_arg2) (V m c main_arg3) (V m c main_arg4) (V m c main_arg5)

/-- The result window's block at point `t` sits at rows `1000·t …`: its entry `(r, j)` is the array's `(1000·t + r, j)`. -/
theorem out_emb (t : Fin cfg0.N) (r : Fin 1000) (j : Fin 256) :
    ((cfg0.win 5).blk t).view.emb (ix2 r j) = (ix2 (rowOf t r) j : S10000x256.Idx) := by
  obtain ⟨-, -, -, -, -, -, -, -, e0, e1⟩ := idx_facts t
  funext a
  apply Fin.ext
  match a with
  | ⟨0, _⟩ => show win0_5.index t (0 : Fin 2) * 1000 + 1 * r.val = 1000 * t.val + r.val; rw [e0]; omega
  | ⟨1, _⟩ => show win0_5.index t (1 : Fin 2) * 256 + 1 * j.val = j.val; rw [e1]; omega

/-- WHAT POINT `t` WRITES BACK is block `t` of `result`. -/
theorem flushed_eq (c : Dev nD) (t : Fin cfg0.N) :
    (dats m 0 c).flushed 5 t = ((cfg0.win 5).blk t).view.read (Elt Ideal) (result m c) := by
  rw [Cert.KernelIdeal.Value.flushed5]
  unfold out0_5
  rw [View.canon_unit_zero hz2]
  simp only [View.ld_unit_zero (S := S1000x256) hz2, View.ld_unit_zero (S := S256x256) hz2, View.ld_unit_zero (S := S256) hz1]
  rw [w1_blk, b1_blk, w2_blk, b2_blk]
  refine funext fun (y : S1000x256.Idx) => ?_
  obtain ⟨r, j, rfl⟩ : ∃ (r : Fin 1000) (j : Fin 256), y = ix2 r j := ⟨y 0, y 1, eq_ix2 y⟩
  show k0_pay1 (F := Ideal) (iblk m c 0 t) (V m c main_arg2) (V m c main_arg3) (V m c main_arg4) (V m c main_arg5) (ix2 r j)
    = result m c (((cfg0.win 5).blk t).view.emb (ix2 r j))
  rw [out_emb]
  refine (pay_apply (iblk m c 0 t) (V m c main_arg2) (V m c main_arg3) (V m c main_arg4) (V m c main_arg5) r j).trans ?_
  show _ = Cert.GinMlp.outUnit (fun k' => (V m c main_v14 : S10000x256.Idx → EReal) (ix2 (rowOf t r) k')) _ _ _ _ j
  exact congrArg (fun row => Cert.GinMlp.outUnit row (V m c main_arg2) (V m c main_arg3) (V m c main_arg4) (V m c main_arg5) j)
    (funext fun k' => feat_blk_apply m c t r k')

/-- An index of the array is in point `t`'s block iff each coordinate is in the block's range on its axis. -/
theorem mem_blk (t : Fin cfg0.N) (i : S10000x256.Idx) :
    i ∈ ((cfg0.win 5).blk t).view.set ↔ ∀ a : Fin 2, win0_5.index t a * S1000x256.size a ≤ (i a).val ∧ (i a).val < win0_5.index t a * S1000x256.size a + S1000x256.size a := by
  show i ∈ ((View.whole main_v15).slice (win0_5.rect t)).set ↔ _
  rw [View.set_slice_whole, Rect.mem_set_unit]
  exact Iff.rfl

/-- The ten row blocks cover the array: row `q` lies in block `q / 1000`. -/
theorem cover (i : S10000x256.Idx) :
    ∃ t : Fin cfg0.N, (cfg0.win 5).flush t = true ∧ i ∈ ((cfg0.win 5).blk t).view.set := by
  have hi0 : (i 0).val < 10000 := (i 0).isLt
  have hi1 : (i 1).val < 256 := (i 1).isLt
  have ht : (i 0).val / 1000 < cfg0.N := lt_of_lt_of_eq (show (i 0).val / 1000 < 10 by omega) N_0.symm
  obtain ⟨-, -, -, -, -, -, -, -, e0, e1⟩ := idx_facts ⟨(i 0).val / 1000, ht⟩
  refine ⟨⟨(i 0).val / 1000, ht⟩, flush0_5 _, ?_⟩
  rw [mem_blk]
  intro a
  match a with
  | ⟨0, _⟩ =>
    show win0_5.index ⟨(i 0).val / 1000, ht⟩ (0 : Fin 2) * 1000 ≤ (i 0).val ∧ (i 0).val < win0_5.index ⟨(i 0).val / 1000, ht⟩ (0 : Fin 2) * 1000 + 1000
    rw [e0]; show (i 0).val / 1000 * 1000 ≤ (i 0).val ∧ (i 0).val < (i 0).val / 1000 * 1000 + 1000; omega
  | ⟨1, _⟩ =>
    show win0_5.index ⟨(i 0).val / 1000, ht⟩ (1 : Fin 2) * 256 ≤ (i 1).val ∧ (i 1).val < win0_5.index ⟨(i 0).val / 1000, ht⟩ (1 : Fin 2) * 256 + 256
    rw [e1]; omega

/-- THE ARRAY after the run is `result`. -/
theorem final (c : Dev nD) : (dats m 0 c).arrAt 5 cfg0.N = result m c :=
  (dats m 0 c).arrAt_eq_of_cover 5 (result m c) (fun t _ => flushed_eq m c t) cover

/-- The frame run re-posted: the result array at `result`, the arguments unchanged. -/
theorem run : θ_run defs (onTc (τ := τ) (main (F := Ideal))) ⟨m, fun _ => 0, ρ⟩ fun r => ∀ c : Dev nD,
      r.2.mem ((c : Thread nD τ).loc main_v15) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩)
    (Cert.KernelIdeal.Value.run_blocks m ρ)

end Cert.KernelIdeal.Hand

end
-- ==== Proof.RefValue.lean ====
/-
  The reference's result, entry by entry.

  After the aggregation (the array `val_main_v14`: every node's features plus the sum of its in-neighbours', which
  this module never opens) the reference is two affine layers with a rectifier between them: a product with `W₁`
  read as a sum over the contracted coordinate, the bias `b₁` repeated down the rows, the maximum with zero, a
  product with `W₂`, the bias `b₂`. Read at `(r, j)` through the generated one-operation-at-a-time lemmas this is
  output unit `j` of the perceptron on row `r` of the aggregated array: the whole result is `Cert.GinMlp.mlp` of it.
-/
import proofs.«179988_j39273180954647_1_alg».proof.Proof.Gen.ReferenceIdeal.Read
import proofs.«179988_j39273180954647_1_alg».proof.Proof.MlpSpec
import Idealize.ShloMosaic.Lib.ValueIdx
import Idealize.ShloMosaic.PureOps.Ideal.Laws

noncomputable section

namespace Cert.ReferenceIdeal.Hand

open Cert.ReferenceIdeal Cert.ReferenceIdeal.Read Idealize.ShloMosaic Idealize.ShloMosaic.ValueIdx

/-! ## The operand indices of the two products and of the two bias rows, at `(r, j)` -/

theorem lidx15 (r : Fin 10000) (j k : Fin 256) : lidx_main_v15 (ix2 r j) k = ix2 r k :=
  funext fun a => Fin.ext (by match a with | ⟨0, _⟩ => rfl | ⟨1, _⟩ => rfl)
theorem ridx15 (r : Fin 10000) (j k : Fin 256) : ridx_main_v15 (ix2 r j) k = ix2 k j :=
  funext fun a => Fin.ext (by match a with | ⟨0, _⟩ => rfl | ⟨1, _⟩ => rfl)
theorem lidx20 (r : Fin 10000) (j k : Fin 256) : lidx_main_v20 (ix2 r j) k = ix2 r k :=
  funext fun a => Fin.ext (by match a with | ⟨0, _⟩ => rfl | ⟨1, _⟩ => rfl)
theorem ridx20 (r : Fin 10000) (j k : Fin 256) : ridx_main_v20 (ix2 r j) k = ix2 k j :=
  funext fun a => Fin.ext (by match a with | ⟨0, _⟩ => rfl | ⟨1, _⟩ => rfl)
theorem bidx1 (r : Fin 10000) (j : Fin 256) : idx_main_v16 (idx_main_v17 (ix2 r j)) = ix1 j :=
  funext fun a => Fin.ext (by match a with | ⟨0, _⟩ => rfl)
theorem bidx2 (r : Fin 10000) (j : Fin 256) : idx_main_v21 (idx_main_v22 (ix2 r j)) = ix1 j :=
  funext fun a => Fin.ext (by match a with | ⟨0, _⟩ => rfl)

/-- The rectified first layer at `(r, k)` is hidden unit `k` of row `r` of the aggregated array. -/
theorem hidden_eq (x0 : (⟨S10000x256, .f32⟩ : BufTy).Contents (Elt Ideal)) (x1 : (⟨S2x320000, .i32⟩ : BufTy).Contents (Elt Ideal))
    (x2 : (⟨S256x256, .f32⟩ : BufTy).Contents (Elt Ideal)) (x3 : (⟨S256, .f32⟩ : BufTy).Contents (Elt Ideal))
    (r : Fin 10000) (k : Fin 256) :
    val_main_v19 (F := Ideal) x0 x1 x2 x3 (ix2 r k)
      = Cert.GinMlp.hiddenUnit (fun k' => val_main_v14 (F := Ideal) x0 x1 (ix2 r k')) x2 x3 k := by
  rw [val_main_v19_apply, val_main_v18_apply, val_main_v15_apply, val_main_v17_apply, val_main_v16_apply,
    val_main_call0_v0_apply, val_main_call0_cst_apply, bidx1]
  unfold Cert.GinMlp.hiddenUnit
  simp only [lidx15, ridx15, Ideal.maximumf_def, Ideal.addf_def, Ideal.ofBits_def, Ideal.ofBits_zero_f32]

/-- THE REFERENCE IS THE PERCEPTRON of the aggregated array, row by row. -/
theorem result_eq_mlp (x0 : (⟨S10000x256, .f32⟩ : BufTy).Contents (Elt Ideal)) (x1 : (⟨S2x320000, .i32⟩ : BufTy).Contents (Elt Ideal))
    (x2 : (⟨S256x256, .f32⟩ : BufTy).Contents (Elt Ideal)) (x3 : (⟨S256, .f32⟩ : BufTy).Contents (Elt Ideal))
    (x4 : (⟨S256x256, .f32⟩ : BufTy).Contents (Elt Ideal)) (x5 : (⟨S256, .f32⟩ : BufTy).Contents (Elt Ideal)) :
    val_main_v23 (F := Ideal) x0 x1 x2 x3 x4 x5 = Cert.GinMlp.mlp (val_main_v14 (F := Ideal) x0 x1) x2 x3 x4 x5 := by
  funext i
  obtain ⟨r, j, rfl⟩ : ∃ (r : Fin 10000) (j : Fin 256), i = ix2 r j := ⟨i 0, i 1, eq_ix2 i⟩
  rw [Cert.GinMlp.mlp_apply, val_main_v23_apply, val_main_v20_apply, val_main_v22_apply, val_main_v21_apply, bidx2]
  unfold Cert.GinMlp.outUnit
  simp only [lidx20, ridx20, hidden_eq, Ideal.addf_def]

end Cert.ReferenceIdeal.Hand

end
-- ==== Proof.HostPrefix.lean ====
/-
  The aggregation is one function on both sides.

  Before its one region the kernel's program computes, by host operations, `h = x + Σ_{edges (s → d)} x[s]` scattered to
  row `d`: it splits the edge list into sources and destinations, wraps negative sources round, gathers the source
  rows, scatter-adds them into a zero array at the destination rows and adds `x`. The reference begins with the very same
  eighteen operations, over records with the same dimension numbers. So the array the kernel's feature window stages
  is, as a term, the reference's stage `val_main_v14` of the same two arguments; nothing about a gather or a
  scatter-add is used beyond that the two spellings are one term.
-/
import proofs.«179988_j39273180954647_1_alg».proof.Proof.Gen.KernelIdeal.Frame
import proofs.«179988_j39273180954647_1_alg».proof.Proof.Gen.ReferenceIdeal.Read
import Idealize.ShloMosaic.Lib.StableHlo.Run

noncomputable section

namespace Cert.KernelIdeal.Hand

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- The aggregated feature array the region finds is the reference's aggregation stage of the launch contents of
    `x` and the edge list. -/
theorem agg_eq (c : Dev nD) :
    (V m c main_v14 : S10000x256.Idx → EReal)
      = Cert.ReferenceIdeal.Read.val_main_v14 (F := Ideal) (m ((c : Thread nD τ).loc main_arg0)) (m ((c : Thread nD τ).loc main_arg1)) := by
  dsimp only [V, hostOps0]
  after_results
  rfl

end Cert.KernelIdeal.Hand

end
-- ==== Proof.lean ====
/-
  A graph-isomorphism-network layer: `out = relu((x + agg) · W₁ + b₁) · W₂ + b₂`, where `agg` sums, for every node, the
  feature rows of its in-neighbours (a gather of source rows scatter-added at destination rows).

  Both programs compute the aggregation `h = x + agg` by the same host operations (`agg_eq`). The kernel then runs the
  two-layer perceptron in one region, a block of a thousand rows per grid point, with its matrix operands narrowed to a
  sixteen-bit format; the reference runs it as two whole-array products. Over the extended reals the narrowing is the
  identity and each product entry is the plain sum over the contracted coordinate, so entry `(r, j)` of either result is
  `Σ_k max(Σ_k' h[r,k']·W₁[k',k] + b₁[k], 0)·W₂[k,j] + b₂[j]` — `Cert.GinMlp.mlp` — with the same grouping on both sides:
  no algebraic law is needed, and the precondition is never opened. The idealization rewrote nothing, so the
  `preserves` conjunct is trivial. The kernel's frames are the generated ones; the reference's frame is its generated
  run with the result dropped.
-/
import proofs.«179988_j39273180954647_1_alg».proof.Defs
import proofs.«179988_j39273180954647_1_alg».proof.Proof.Gen.Kernel
import proofs.«179988_j39273180954647_1_alg».proof.Proof.Gen.Kernel.Skeleton
import proofs.«179988_j39273180954647_1_alg».proof.Proof.Gen.Kernel.Launch
import proofs.«179988_j39273180954647_1_alg».proof.Proof.Gen.Kernel.Points
import proofs.«179988_j39273180954647_1_alg».proof.Proof.Gen.Kernel.Frame
import proofs.«179988_j39273180954647_1_alg».proof.Proof.Gen.KernelIdeal
import proofs.«179988_j39273180954647_1_alg».proof.Proof.Gen.KernelIdeal.Skeleton
import proofs.«179988_j39273180954647_1_alg».proof.Proof.Gen.KernelIdeal.Launch
import proofs.«179988_j39273180954647_1_alg».proof.Proof.Gen.KernelIdeal.Points
import proofs.«179988_j39273180954647_1_alg».proof.Proof.Gen.KernelIdeal.Frame
import proofs.«179988_j39273180954647_1_alg».proof.Proof.Gen.ReferenceIdeal
import proofs.«179988_j39273180954647_1_alg».proof.Proof.Gen.Pre_finite_inputs
import proofs.«179988_j39273180954647_1_alg».proof.Proof.Gen.KernelIdeal.Value
import proofs.«179988_j39273180954647_1_alg».proof.Proof.Gen.ReferenceIdeal.Run
import proofs.«179988_j39273180954647_1_alg».proof.Proof.Gen.ReferenceIdeal.Read
import proofs.«179988_j39273180954647_1_alg».proof.Proof.MlpSpec
import proofs.«179988_j39273180954647_1_alg».proof.Proof.KernelValue
import proofs.«179988_j39273180954647_1_alg».proof.Proof.RefValue
import proofs.«179988_j39273180954647_1_alg».proof.Proof.HostPrefix
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The kernel's result array, in the launch contents of the arguments: the perceptron on every row of the
    reference's aggregation stage. -/
theorem kernel_result_eq (m : (ℓ : Loc Cert.KernelIdeal.nD Cert.KernelIdeal.τ Cert.KernelIdeal.sig) → Buf (Elt Ideal) ℓ)
    (c : Dev Cert.KernelIdeal.nD) :
    Cert.KernelIdeal.Hand.result m c
      = Cert.GinMlp.mlp
          (Cert.ReferenceIdeal.Read.val_main_v14 (F := Ideal)
            (m ((c : Thread Cert.KernelIdeal.nD Cert.KernelIdeal.τ).loc Cert.KernelIdeal.main_arg0))
            (m ((c : Thread Cert.KernelIdeal.nD Cert.KernelIdeal.τ).loc Cert.KernelIdeal.main_arg1)))
          (m ((c : Thread Cert.KernelIdeal.nD Cert.KernelIdeal.τ).loc Cert.KernelIdeal.main_arg2))
          (m ((c : Thread Cert.KernelIdeal.nD Cert.KernelIdeal.τ).loc Cert.KernelIdeal.main_arg3))
          (m ((c : Thread Cert.KernelIdeal.nD Cert.KernelIdeal.τ).loc Cert.KernelIdeal.main_arg4))
          (m ((c : Thread Cert.KernelIdeal.nD Cert.KernelIdeal.τ).loc Cert.KernelIdeal.main_arg5)) := by
  unfold Cert.KernelIdeal.Hand.result
  rw [Cert.KernelIdeal.Hand.agg_eq, Cert.KernelIdeal.Gen.V_main_arg2, Cert.KernelIdeal.Gen.V_main_arg3,
    Cert.KernelIdeal.Gen.V_main_arg4, Cert.KernelIdeal.Gen.V_main_arg5]

/-- Run from memories that agree on the arguments, both programs end with the result array at the perceptron of
    the aggregated features: the kernel block by block (`Hand.run`), the reference by its generated run read one
    operation at a time (`result_eq_mlp`). -/
theorem algebraic : Cert.algebraic_KernelIdeal_ReferenceIdeal := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [Cert.ReferenceIdeal.Read.val_main_v23_eq, Cert.ReferenceIdeal.Hand.result_eq_mlp, a0, a1, a2, a3, a4, a5]
  exact (kernel_result_eq m c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
